-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S100000x128 .f32) (main_arg1 : IVec S640000 32) (main_arg2 : IVec S640000 32) (main_arg3 : FVec F S128x128 .f32) (main_arg4 : FVec F S128x128 .f32) (main_arg5 : FVec F S128x2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩
abbrev S5000x128 : Shape := ⟨2, ![5000, 128]⟩
abbrev S5000x2 : Shape := ⟨2, ![5000, 2]⟩

abbrev nBuf : Space → Nat
  | .hbm => 25
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x2, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x2, .f32⟩
  | .local _ .vmem, ⟨7, _⟩ => ⟨S5000x2, .f32⟩
  | .local _ .vmem, ⟨8, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  gather_S100000x128_S640000x1_S640000x128_1_0_n_n_0_1_1128_wf : GatherDims.WF S100000x128 S640000x1 S640000x128 [1] [0] [] [0] [] 1 ![1, 128]
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S128x2.size a
  hwx0_4 : ∀ i : grid0.Coords, EltTy.bits .f32 = 32 ∨ (Rect.block (s := S128x2) S128x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x2.size a ≤ S640000x2.size a
  hwx0_5 : ∀ i : grid0.Coords, EltTy.bits .f32 = 32 ∨ (Rect.block (s := S640000x2) S5000x2.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x2, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .f32⟩
  | .hbm, ⟨25, _⟩ => ⟨S640000x128, .f32⟩
  | .hbm, ⟨26, _⟩ => ⟨S_, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  dot_S640000x128_S128x2_S640000x2_1_0_0_1_n_n_wf : DotDims.WF S640000x128 S128x2 S640000x2 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x2_S640000x2_1_0_0_1_n_n : DotDims S640000x128 S128x2 S640000x2 where
  lhsContracting := [1]
  rhsContracting := [0]
  lhsNonContracting := [0]
  rhsNonContracting := [1]
  lhsBatch := []
  rhsBatch := []
  wf := dot_S640000x128_S128x2_S640000x2_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.EdgeScore.lean ====
/-
  The score of one edge, and the two ways the programs spell it.

  An edge carries the elementwise product h of its two endpoint feature rows (h has 128 entries). Three weight
  matrices act on it in turn: a dense layer sends a row vector x to the row vector whose entry j is the sum over q of
  x(q) · W(q, j); after each of the first two layers every entry is replaced by its maximum with zero. The score of the
  edge in class c is entry c of the third layer's output:

      score(c) = ∑ k, max(∑ j, max(∑ i, h(i) · W1(i, j), 0) · W2(j, k), 0) · W3(k, c).

  Over a stack of M edges (the rows of two M × 128 arrays A and B, h being the product of row p of A and row p of B) the
  same number is computed by three plain matrix products, each followed by the entrywise maximum with an all-zero array:
  entry (p, j) of a plain product only involves row p of its left factor, so the rows never mix. This holds whether the
  products are the accumulating kind started from an all-zero array (with the factors first narrowed to a shorter
  format, which changes nothing over the extended reals) or the kind with no accumulator. No law of the extended reals
  is used beyond reading each product at an entry; in particular no finiteness of the entries is needed.
-/
import Idealize.ShloMosaic.PureOps.Ideal.Laws
import Idealize.ShloMosaic.Lib.ValueIdx
import proofs.«132919_j84335977824414_1_alg».proof.Proof.LibDotPlain

noncomputable section

open scoped BigOperators

namespace Cert.EdgeScore

open Idealize.ShloMosaic Idealize.ShloMosaic.ValueIdx

/-- The value of the all-zero 32-bit pattern: the number each rectifier compares with. It is kept as the pattern's
    value on both sides and never evaluated. -/
abbrev floor0 : EReal := Ideal.ofBits .f32 0x00000000#32

/-- One dense layer on a row vector: entry j of the output is the sum over q of x(q) · W(q, j). -/
def layer {K N : Nat} (W : FVec Ideal ⟨2, ![K, N]⟩ .f32) (x : Fin K → EReal) (j : Fin N) : EReal :=
  ∑ q : Fin K, x q * W (ix2 q j)

/-- The rectifier: the maximum with zero. -/
def rect (x : EReal) : EReal := max x floor0

/-- The score in class c of an edge whose endpoint product is h: two rectified dense layers, then a third dense
    layer. -/
def score (W1 W2 : FVec Ideal ⟨2, ![128, 128]⟩ .f32) (W3 : FVec Ideal ⟨2, ![128, 2]⟩ .f32) (h : Fin 128 → EReal)
    (c : Fin 2) : EReal :=
  layer W3 (fun k => rect (layer W2 (fun j => rect (layer W1 h j)) k)) c

/-- The score depends only on the weights and on the entries of the endpoint product. -/
theorem score_congr {W1 W1' W2 W2' : FVec Ideal ⟨2, ![128, 128]⟩ .f32} {W3 W3' : FVec Ideal ⟨2, ![128, 2]⟩ .f32}
    {h h' : Fin 128 → EReal} (e1 : W1 = W1') (e2 : W2 = W2') (e3 : W3 = W3') (eh : ∀ i, h i = h' i) (c : Fin 2) :
    score W1 W2 W3 h c = score W1' W2' W3' h' c := by
  subst e1 e2 e3
  exact congrArg (fun x => score W1 W2 W3 x c) (funext eh)

/-- The scores of a stack of M edges: entry (p, c) is the score in class c of the edge whose endpoint rows are row p
    of A and row p of B. -/
def scores {M : Nat} (A B : FVec Ideal ⟨2, ![M, 128]⟩ .f32) (W1 W2 : FVec Ideal ⟨2, ![128, 128]⟩ .f32)
    (W3 : FVec Ideal ⟨2, ![128, 2]⟩ .f32) : FVec Ideal ⟨2, ![M, 2]⟩ .f32 :=
  fun e => score W1 W2 W3 (fun i => A (ix2 (n0 := M) (e 0) i) * B (ix2 (n0 := M) (e 0) i)) (e 1)

/-- At entry (p, c) the stack's scores are the score of the edge in row p. -/
theorem scores_apply {M : Nat} (A B : FVec Ideal ⟨2, ![M, 128]⟩ .f32) (W1 W2 : FVec Ideal ⟨2, ![128, 128]⟩ .f32)
    (W3 : FVec Ideal ⟨2, ![128, 2]⟩ .f32) (p : Fin M) (c : Fin 2) :
    scores A B W1 W2 W3 (ix2 p c) = score W1 W2 W3 (fun i => A (ix2 p i) * B (ix2 p i)) c := rfl

/-- Three accumulating products from all-zero arrays, the factors narrowed to the shorter format first and the first
    two results rectified against a splat zero, read at entry (p, c): the score of the edge in row p. -/
theorem matmul_layers (M : Nat) (hb : FTy.bits .bf16 < FTy.bits .f32) (A B : FVec Ideal ⟨2, ![M, 128]⟩ .f32)
    (W1 W2 : FVec Ideal ⟨2, ![128, 128]⟩ .f32) (W3 : FVec Ideal ⟨2, ![128, 2]⟩ .f32) (p : Fin M) (c : Fin 2) :
    FloatOps.matmul (DotDims.plain M 128 2) none
      (truncf .bf16 (maximumf (FloatOps.matmul (DotDims.plain M 128 128) none
        (truncf .bf16 (maximumf (FloatOps.matmul (DotDims.plain M 128 128) none
            (truncf .bf16 (mulf A B) hb) (truncf .bf16 W1 hb) (constant ⟨2, ![M, 128]⟩ .f32 0x00000000#32))
          (broadcast ⟨2, ![M, 128]⟩ (Scalar.ofBits (F := Ideal) .f32 0x00000000#32))) hb)
        (truncf .bf16 W2 hb) (constant ⟨2, ![M, 128]⟩ .f32 0x00000000#32))
        (broadcast ⟨2, ![M, 128]⟩ (Scalar.ofBits (F := Ideal) .f32 0x00000000#32))) hb)
      (truncf .bf16 W3 hb) (constant ⟨2, ![M, 2]⟩ .f32 0x00000000#32) (ix2 p c)
    = score W1 W2 W3 (fun i => A (ix2 p i) * B (ix2 p i)) c := by
  simp only [Cert.LibDotPlain.matmul_zero_plain, truncf_apply, maximumf_apply, mulf_apply, broadcast_apply]
  rfl

/-- Three products with no accumulator, the first two results rectified against a broadcast zero, read at entry
    (p, c): the score of the edge in row p. -/
theorem dotGeneral_layers (M : Nat) (hz : (⟨0, ![]⟩ : Shape).BroadcastsInDim ⟨2, ![M, 128]⟩ (![] : Fin 0 → Fin 2))
    (A B : FVec Ideal ⟨2, ![M, 128]⟩ .f32)
    (W1 W2 : FVec Ideal ⟨2, ![128, 128]⟩ .f32) (W3 : FVec Ideal ⟨2, ![128, 2]⟩ .f32) (p : Fin M) (c : Fin 2) :
    Host.dotGeneral (DotDims.plain M 128 2) none
      (maximumf (Host.dotGeneral (DotDims.plain M 128 128) none
        (maximumf (Host.dotGeneral (DotDims.plain M 128 128) none (mulf A B) W1)
          (broadcastInDim ⟨2, ![M, 128]⟩ ![] hz (constant (F := Ideal) ⟨0, ![]⟩ .f32 0x00000000#32)))
        W2)
        (broadcastInDim ⟨2, ![M, 128]⟩ ![] hz (constant (F := Ideal) ⟨0, ![]⟩ .f32 0x00000000#32)))
      W3 (ix2 p c)
    = score W1 W2 W3 (fun i => A (ix2 p i) * B (ix2 p i)) c := by
  simp only [Host.dotGeneral, Cert.LibDotPlain.dotGeneral_plain, maximumf_apply, mulf_apply]
  rfl

end Cert.EdgeScore

end
-- ==== Proof.KernelBlocks.lean ====
/-
  What the kernel leaves in its result array.

  The kernel works through the 640000 edges in 128 blocks of 5000 consecutive edges. At block t it is handed rows
  5000·t … 5000·t + 4999 of the two gathered endpoint arrays and the three weight matrices whole, and writes rows
  5000·t … 5000·t + 4999 of the result. Entry (p, c) of what it writes is the score in class c of the edge in row p of
  the block (Proof/EdgeScore.lean), that is of edge 5000·t + p. The blocks tile the result array, every block is
  written back, and edge e lies in block e / 5000; so after the run entry (e, c) of the result is the score of edge e.

  The two endpoint arrays are computed before the kernel runs: a negative index has the table's row count added to it,
  and the row of the feature table at that index is gathered.
-/
import proofs.«132919_j84335977824414_1_alg».proof.Proof.Gen.KernelIdeal.Value
import proofs.«132919_j84335977824414_1_alg».proof.Proof.EdgeScore
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.EdgeBlocks

open Cert.KernelIdeal Cert.KernelIdeal.Gen Cert.KernelIdeal.Value Cert.EdgeScore

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- Entry (p, c) of what the body computes from a block of endpoint rows and the weights is the score in class c of
    the edge in row p. -/
theorem pay_apply (x0 x1 : FVec Ideal S5000x128 .f32) (x2 x3 : FVec Ideal S128x128 .f32) (x4 : FVec Ideal S128x2 .f32)
    (p : Fin 5000) (c : Fin 2) :
    k0_pay1 (F := Ideal) x0 x1 x2 x3 x4 (ix2 p c) = score x2 x3 x4 (fun i => x0 (ix2 p i) * x1 (ix2 p i)) c := by
  unfold k0_pay1
  simp only [shapeCast_self]
  exact matmul_layers 5000 bitsLt_bf16_f32 x0 x1 x2 x3 x4 p c

/-! ## Which rows a block holds -/

/-- The block indices at grid point t: the two endpoint arrays and the result move down one block of rows per point,
    the weights stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The two endpoint arrays and the three weight matrices as the kernel finds them, and their blocks at point t, each
    named at its literal shape. -/
abbrev srcArr (c : Dev nD) : FVec Ideal S640000x128 .f32 := V m c main_v6
abbrev dstArr (c : Dev nD) : FVec Ideal S640000x128 .f32 := V m c main_v13
abbrev w1Arr (c : Dev nD) : FVec Ideal S128x128 .f32 := V m c main_arg3
abbrev w2Arr (c : Dev nD) : FVec Ideal S128x128 .f32 := V m c main_arg4
abbrev w3Arr (c : Dev nD) : FVec Ideal S128x2 .f32 := V m c main_arg5
abbrev srcBlk (c : Dev nD) (t : Fin cfg0.N) : FVec Ideal S5000x128 .f32 := iblk m c 0 t
abbrev dstBlk (c : Dev nD) (t : Fin cfg0.N) : FVec Ideal S5000x128 .f32 := iblk m c 1 t
abbrev w1Blk (c : Dev nD) (t : Fin cfg0.N) : FVec Ideal S128x128 .f32 := iblk m c 2 t
abbrev w2Blk (c : Dev nD) (t : Fin cfg0.N) : FVec Ideal S128x128 .f32 := iblk m c 3 t
abbrev w3Blk (c : Dev nD) (t : Fin cfg0.N) : FVec Ideal S128x2 .f32 := iblk m c 4 t

/-- Row p of the first endpoint array's block at point t is row 5000·t + p of that array. -/
theorem src_block (c : Dev nD) (t : Fin cfg0.N) (p : Fin 5000) (i : Fin 128) (e : S640000x128.Idx)
    (he0 : (e 0).val = t.val * 5000 + p.val) (he1 : (e 1).val = i.val) :
    srcBlk m c t (ix2 p i) = srcArr m c e := by
  obtain ⟨h0, h1, -⟩ := idx_facts t
  unfold srcBlk srcArr iblk
  rw [View.read_apply]
  show V m c main_v6 _ = V m c main_v6 _
  congr 1
  funext a
  apply Fin.ext
  match a with
  | ⟨0, _⟩ => show win0_0.index t (0 : Fin 2) * 5000 + 1 * p.val = (e 0).val; rw [h0, he0]; omega
  | ⟨1, _⟩ => show win0_0.index t (1 : Fin 2) * 128 + 1 * i.val = (e 1).val; rw [h1, he1]; omega

/-- Row p of the second endpoint array's block at point t is row 5000·t + p of that array. -/
theorem dst_block (c : Dev nD) (t : Fin cfg0.N) (p : Fin 5000) (i : Fin 128) (e : S640000x128.Idx)
    (he0 : (e 0).val = t.val * 5000 + p.val) (he1 : (e 1).val = i.val) :
    dstBlk m c t (ix2 p i) = dstArr m c e := by
  obtain ⟨-, -, h0, h1, -⟩ := idx_facts t
  unfold dstBlk dstArr iblk
  rw [View.read_apply]
  show V m c main_v13 _ = V m c main_v13 _
  congr 1
  funext a
  apply Fin.ext
  match a with
  | ⟨0, _⟩ => show win0_1.index t (0 : Fin 2) * 5000 + 1 * p.val = (e 0).val; rw [h0, he0]; omega
  | ⟨1, _⟩ => show win0_1.index t (1 : Fin 2) * 128 + 1 * i.val = (e 1).val; rw [h1, he1]; omega

/-- The first weight matrix's one block is the matrix. -/
theorem w1_block (c : Dev nD) (t : Fin cfg0.N) : w1Blk m c t = w1Arr m c := by
  obtain ⟨-, -, -, -, h0, h1, -⟩ := idx_facts t
  funext y
  unfold w1Blk w1Arr iblk
  rw [View.read_apply]
  show V m c main_arg3 _ = V m c main_arg3 y
  congr 1
  funext a
  apply Fin.ext
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- The second weight matrix's one block is the matrix. -/
theorem w2_block (c : Dev nD) (t : Fin cfg0.N) : w2Blk m c t = w2Arr m c := by
  obtain ⟨-, -, -, -, -, -, h0, h1, -⟩ := idx_facts t
  funext y
  unfold w2Blk w2Arr iblk
  rw [View.read_apply]
  show V m c main_arg4 _ = V m c main_arg4 y
  congr 1
  funext a
  apply Fin.ext
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

/-- The third weight matrix's one block is the matrix. -/
theorem w3_block (c : Dev nD) (t : Fin cfg0.N) : w3Blk m c t = w3Arr m c := by
  obtain ⟨-, -, -, -, -, -, -, -, h0, h1, -⟩ := idx_facts t
  funext y
  unfold w3Blk w3Arr iblk
  rw [View.read_apply]
  show V m c main_arg5 _ = V m c main_arg5 y
  congr 1
  funext a
  apply Fin.ext
  match a with
  | ⟨0, _⟩ => show win0_4.index t (0 : Fin 2) * 128 + 1 * (y 0).val = (y 0).val; rw [h0]; omega
  | ⟨1, _⟩ => show win0_4.index t (1 : Fin 2) * 2 + 1 * (y 1).val = (y 1).val; rw [h1]; omega

/-! ## The result array -/

/-- The scores of all the edges, from the two endpoint arrays and the weights as the kernel finds them. -/
abbrev result (c : Dev nD) : FVec Ideal S640000x2 .f32 :=
  scores (M := 640000) (srcArr m c) (dstArr m c) (w1Arr m c) (w2Arr m c) (w3Arr m c)

/-- Entry (p, c') of what the body computes at point t is the score in class c' of edge 5000·t + p. -/
theorem block_entry (c : Dev nD) (t : Fin cfg0.N) (p : Fin 5000) (q : Fin 2) (hb : t.val * 5000 + p.val < 640000) :
    k0_pay1 (F := Ideal) (srcBlk m c t) (dstBlk m c t) (w1Blk m c t) (w2Blk m c t) (w3Blk m c t) (ix2 p q)
      = result m c (ix2 (⟨t.val * 5000 + p.val, hb⟩ : Fin 640000) q) := by
  refine (pay_apply (srcBlk m c t) (dstBlk m c t) (w1Blk m c t) (w2Blk m c t) (w3Blk m c t) p q).trans ?_
  refine (score_congr (h' := fun i => srcArr m c (ix2 (⟨t.val * 5000 + p.val, hb⟩ : Fin 640000) i)
      * dstArr m c (ix2 (⟨t.val * 5000 + p.val, hb⟩ : Fin 640000) i))
    (w1_block m c t) (w2_block m c t) (w3_block m c t) (fun i => congrArg₂ (· * ·)
      (src_block m c t p i (ix2 (⟨t.val * 5000 + p.val, hb⟩ : Fin 640000) i) rfl rfl)
      (dst_block m c t p i (ix2 (⟨t.val * 5000 + p.val, hb⟩ : Fin 640000) i) rfl rfl)) q).trans ?_
  exact (scores_apply (srcArr m c) (dstArr m c) (w1Arr m c) (w2Arr m c) (w3Arr m c) ⟨t.val * 5000 + p.val, hb⟩ q).symm

/-- Row p of the result's block at point t is row 5000·t + p of the result array. -/
theorem out_emb (t : Fin cfg0.N) (p : Fin 5000) (q : Fin 2) (e : S640000x2.Idx)
    (he0 : (e 0).val = t.val * 5000 + p.val) (he1 : (e 1).val = q.val) :
    ((cfg0.win 5).blk t).view.emb (ix2 p q) = e := by
  obtain ⟨-, -, -, -, -, -, -, -, -, -, h0, h1⟩ := idx_facts t
  funext a
  apply Fin.ext
  match a with
  | ⟨0, _⟩ => show win0_5.index t (0 : Fin 2) * 5000 + 1 * p.val = (e 0).val; rw [h0, he0]; omega
  | ⟨1, _⟩ => show win0_5.index t (1 : Fin 2) * 2 + 1 * q.val = (e 1).val; rw [h1, he1]; omega

/-- What point t writes back is block t of the scores of all the edges. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S5000x128) hz, View.ld_unit_zero (S := S128x128) hz, View.ld_unit_zero (S := S128x2) hz]
  refine funext fun (j : S5000x2.Idx) => ?_
  obtain ⟨p, q, rfl⟩ : ∃ (p : Fin 5000) (q : Fin 2), j = ix2 p q := ⟨j 0, j 1, eq_ix2 j⟩
  have hb : t.val * 5000 + p.val < 640000 := by
    have h := t.isLt
    have e : cfg0.N = 128 := N_0
    have hp : p.val < 5000 := p.isLt
    omega
  show k0_pay1 (F := Ideal) (srcBlk m c t) (dstBlk m c t) (w1Blk m c t) (w2Blk m c t) (w3Blk m c t) (ix2 p q)
    = result m c (((cfg0.win 5).blk t).view.emb (ix2 p q))
  rw [out_emb t p q (ix2 (⟨t.val * 5000 + p.val, hb⟩ : Fin 640000) q) rfl rfl]
  exact block_entry m c t p q hb

/-- An edge is in point t's block iff its row is one of that block's 5000 rows. -/
theorem mem_blk (t : Fin cfg0.N) (i : S640000x2.Idx) :
    i ∈ ((cfg0.win 5).blk t).view.set ↔ ∀ a : Fin 2, win0_5.index t a * S5000x2.size a ≤ (i a).val ∧ (i a).val < win0_5.index t a * S5000x2.size a + S5000x2.size a := by
  show i ∈ ((View.whole main_v14).slice (win0_5.rect t)).set ↔ _
  rw [View.set_slice_whole, Rect.mem_set_unit]
  exact Iff.rfl

/-- Every entry of the result array is in the block of the point its row divided by 5000 names, and that point writes
    its block back. -/
theorem cover (i : S640000x2.Idx) :
    ∃ t : Fin cfg0.N, (cfg0.win 5).flush t = true ∧ i ∈ ((cfg0.win 5).blk t).view.set := by
  have h0 : (i 0).val < 640000 := (i 0).isLt
  have h1 : (i 1).val < 2 := (i 1).isLt
  have ht : (i 0).val / 5000 < cfg0.N := by rw [show cfg0.N = 128 from N_0]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 2 ≤ (i 1).val ∧ (i 1).val < win0_5.index ⟨(i 0).val / 5000, ht⟩ (1 : Fin 2) * 2 + 2
    rw [e1]; omega

/-- After the run the result array holds the scores of all the edges. -/
theorem final (c : Dev nD) : (dats m 0 c).arrAt 5 cfg0.N = result m c :=
  (dats m 0 c).arrAt_eq_of_cover 5 (result m c) (fun t _ => flushed_eq m c t) cover

/-! ## The endpoint arrays, and the run -/

/-- The rows of the feature table at a list of indices, as the program computes them before the kernel: an index below
    zero has 100000, the table's row count, added to it; then row `index` of the table is gathered. -/
def gathered (x : FVec Ideal S100000x128 .f32) (idx : IVec S640000 32) : FVec Ideal S640000x128 .f32 :=
  Host.gather gather_S100000x128_S640000x1_S640000x128_1_0_n_n_0_1_1128 x
    (broadcastInDim S640000x1 ![0] bcast_S640000_S640000x1_0
      (select (cmpi .slt idx (broadcastInDim S640000 ![] bcast_S_S640000 (constantI S_ 32 0#32)))
        (addi idx (broadcastInDim S640000 ![] bcast_S_S640000 (constantI S_ 32 100000#32))) idx))

/-- The first endpoint array is the table's rows at the first index list. -/
theorem srcArr_eq (c : Dev nD) :
    srcArr m c = gathered (m ((c : Thread nD τ).loc main_arg0)) (m ((c : Thread nD τ).loc main_arg1)) := by
  unfold srcArr gathered
  dsimp only [V, hostOps0]
  after_results

/-- The second endpoint array is the table's rows at the second index list. -/
theorem dstArr_eq (c : Dev nD) :
    dstArr m c = gathered (m ((c : Thread nD τ).loc main_arg0)) (m ((c : Thread nD τ).loc main_arg2)) := by
  unfold dstArr gathered
  dsimp only [V, hostOps0]
  after_results

/-- The scores of all the edges as a function of the program's arguments. -/
theorem result_eq (c : Dev nD) :
    result m c = scores (M := 640000)
      (gathered (m ((c : Thread nD τ).loc main_arg0)) (m ((c : Thread nD τ).loc main_arg1)))
      (gathered (m ((c : Thread nD τ).loc main_arg0)) (m ((c : Thread nD τ).loc main_arg2)))
      (m ((c : Thread nD τ).loc main_arg3)) (m ((c : Thread nD τ).loc main_arg4)) (m ((c : Thread nD τ).loc main_arg5)) := by
  unfold result
  rw [srcArr_eq, dstArr_eq]
  unfold w1Arr w2Arr w3Arr
  rw [V_main_arg3, V_main_arg4, V_main_arg5]

/-- Every weakly fair execution of the program ends with the result array holding the scores of all the edges and
    the arguments unchanged. -/
theorem run : θ_run defs (onTc (τ := τ) (main (F := Ideal))) ⟨m, fun _ => 0, ρ⟩ fun r => ∀ c : Dev nD,
      r.2.mem ((c : Thread nD τ).loc main_v14) = scores (M := 640000)
        (gathered (m ((c : Thread nD τ).loc main_arg0)) (m ((c : Thread nD τ).loc main_arg1)))
        (gathered (m ((c : Thread nD τ).loc main_arg0)) (m ((c : Thread nD τ).loc main_arg2)))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((final m c).trans (result_eq m c)), (h c).2⟩)
    (run_blocks m ρ)

end Cert.KernelIdeal.EdgeBlocks

end
-- ==== Proof.ReferenceRows.lean ====
/-
  What the reference computes.

  The reference gathers the two endpoint rows of every edge from the feature table (an index below zero first has the
  table's row count added to it), multiplies the two 640000 × 128 arrays entry by entry, and sends the product through
  three plain matrix products with the weight matrices, the first two each followed by the entrywise maximum with zero.
  Entry (e, c) of a plain product involves only row e of its left factor, so entry (e, c) of the result is the score in
  class c of edge e (Proof/EdgeScore.lean): the scores of all the edges.
-/
import proofs.«132919_j84335977824414_1_alg».proof.Proof.Gen.ReferenceIdeal.Run
import proofs.«132919_j84335977824414_1_alg».proof.Proof.EdgeScore

noncomputable section

open Idealize.ShloMosaic Idealize.ShloMosaic.ValueIdx

namespace Cert.ReferenceIdeal.EdgeRows

open Cert.ReferenceIdeal Cert.ReferenceIdeal.Gen Cert.EdgeScore

/-- The rows of the feature table at a list of indices, as the reference computes them: an index below zero has
    100000, the table's row count, added to it; then row `index` of the table is gathered. -/
def gathered (x : FVec Ideal S100000x128 .f32) (idx : IVec S640000 32) : FVec Ideal S640000x128 .f32 :=
  Host.gather gather_S100000x128_S640000x1_S640000x128_1_0_n_n_0_1_1128 x
    (broadcastInDim S640000x1 ![0] bcast_S640000_S640000x1_0
      (select (cmpi .slt idx (broadcastInDim S640000 ![] bcast_S_S640000 (constantI S_ 32 0#32)))
        (addi idx (broadcastInDim S640000 ![] bcast_S_S640000 (constantI S_ 32 100000#32))) idx))

/-- The reference's result, as a function of its arguments, is the scores of all the edges. -/
theorem result_eq (x0 : FVec Ideal S100000x128 .f32) (x1 x2 : IVec S640000 32) (x3 x4 : FVec Ideal S128x128 .f32)
    (x5 : FVec Ideal S128x2 .f32) :
    Host.dotGeneral dot_S640000x128_S128x2_S640000x2_1_0_0_1_n_n none
      (maximumf (Host.dotGeneral dot_S640000x128_S128x128_S640000x128_1_0_0_1_n_n none
        (maximumf (Host.dotGeneral dot_S640000x128_S128x128_S640000x128_1_0_0_1_n_n none
            (mulf (gathered x0 x1) (gathered x0 x2)) x3)
          (broadcastInDim S640000x128 ![] bcast_S_S640000x128 (constant S_ .f32 0x00000000#32)))
        x4)
        (broadcastInDim S640000x128 ![] bcast_S_S640000x128 (constant S_ .f32 0x00000000#32)))
      x5
    = scores (M := 640000) (gathered x0 x1) (gathered x0 x2) x3 x4 x5 := by
  funext e
  obtain ⟨p, c, rfl⟩ : ∃ (p : Fin 640000) (c : Fin 2), e = ix2 p c := ⟨e 0, e 1, eq_ix2 e⟩
  exact dotGeneral_layers 640000 bcast_S_S640000x128 (gathered x0 x1) (gathered x0 x2) x3 x4 x5 p c

end Cert.ReferenceIdeal.EdgeRows

end
-- ==== Proof.lean ====
/-
  The kernel scores every edge of a graph and so does the reference; the two agree.

  Both programs gather, for each of the 640000 edges, the feature rows of its two endpoints, multiply them entry by
  entry, and pass the product through two rectified dense layers and a third dense layer (Proof/EdgeScore.lean says what
  the score of one edge is). The kernel does so 5000 edges at a time and its blocks tile the result
  (Proof/KernelBlocks.lean); the reference does so with three matrix products over all the edges at once
  (Proof/ReferenceRows.lean). Over the extended reals narrowing a number to a shorter format is the identity and a
  matrix product is a sum of products in both programs, so the two results are one array, entry by entry; no property
  of the inputs is used, and the finiteness the statement grants is never opened.

  The three frames are the programs' runs with the results forgotten; the kernel's idealization rewrote nothing, so
  there is nothing to preserve.
-/
import proofs.«132919_j84335977824414_1_alg».proof.Defs
import proofs.«132919_j84335977824414_1_alg».proof.Proof.Gen.Kernel
import proofs.«132919_j84335977824414_1_alg».proof.Proof.Gen.Kernel.Frame
import proofs.«132919_j84335977824414_1_alg».proof.Proof.Gen.KernelIdeal
import proofs.«132919_j84335977824414_1_alg».proof.Proof.Gen.KernelIdeal.Frame
import proofs.«132919_j84335977824414_1_alg».proof.Proof.Gen.ReferenceIdeal
import proofs.«132919_j84335977824414_1_alg».proof.Proof.Gen.ReferenceIdeal.Run
import proofs.«132919_j84335977824414_1_alg».proof.Proof.Gen.Pre_finite_inputs
import proofs.«132919_j84335977824414_1_alg».proof.Proof.KernelBlocks
import proofs.«132919_j84335977824414_1_alg».proof.Proof.ReferenceRows
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two endpoint arrays are spelt the same way in the two programs. -/
theorem gathered_eq (x : FVec Ideal ⟨2, ![100000, 128]⟩ .f32) (idx : IVec ⟨1, ![640000]⟩ 32) :
    Cert.ReferenceIdeal.EdgeRows.gathered x idx = Cert.KernelIdeal.EdgeBlocks.gathered x idx := rfl

/-- From arguments that agree, both programs end with the scores of all the edges in their result arrays. -/
theorem algebraic : Cert.algebraic_KernelIdeal_ReferenceIdeal := by
  intro m ρ m' ρ' _ hagree
  refine ⟨_, Cert.KernelIdeal.EdgeBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  refine (Cert.ReferenceIdeal.EdgeRows.result_eq _ _ _ _ _ _).trans ?_
  rw [gathered_eq, gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
